-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) (main_arg2 : IVec S8192x2048 1) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S8192x2048 : Shape := ⟨2, ![8192, 2048]⟩
abbrev S_ : Shape := ⟨0, ![]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .i1⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .bf16⟩
  | .hbm, ⟨11, _⟩ => ⟨S8192x2048, .bf16⟩
  | .hbm, ⟨12, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192x2048 : S_.BroadcastsInDim S8192x2048 (![] : Fin 0 → Fin S8192x2048.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v3) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S8192x8192 : Shape := ⟨2, ![8192, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .i1⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  dot_S8192x2048_S8192x2048_S8192x8192_1_1_0_0_n_n_wf : DotDims.WF S8192x2048 S8192x2048 S8192x8192 [1] [1] [0] [0] [] []

variable [Facts₀]

def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf

class Facts : Prop extends Facts₀ where

variable [Facts]
-- ==== Proof.BlockProduct.lean ====
/-
  What one grid point computes: the kernel body loads a 1024 by 2048 block of activations and a 1024 by 2048 block of
  weights and stores their product contracted over the shared 2048 columns into a zero accumulator. Read at entry
  (p, q) of the 1024 by 1024 result block that is the inner product of row p of the first block with row q of the
  second, a sum of 2048 products on the extended reals (the zero accumulator adds nothing).
-/
import proofs.«427572_j20332375179588_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's row is the result's row. -/
theorem lhs_row (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
/-- The left operand's column is the contraction position. -/
theorem lhs_col (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
/-- The right operand's row is the result's column. -/
theorem rhs_row (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
/-- The right operand's column is the contraction position. -/
theorem rhs_col (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The block product into a zero accumulator, at entry (p, q): row p of the left block against row q of the right. -/
theorem matmul_zero_apply (l r : FVec Ideal S1024x2048 .bf16) (p q : Fin 1024) :
    matmul (F := Ideal) dot_S1024x2048_S1024x2048_S1024x1024_1_1_0_0_n_n none l r (constant S1024x1024 .f32 0x00000000#32) (ix2 p q)
      = ∑ k : Fin 2048, l (ix2 p k) * r (ix2 q k) := by
  show FloatOps.matmul dot_S1024x2048_S1024x2048_S1024x1024_1_1_0_0_n_n none l r (constant S1024x1024 .f32 0x00000000#32) (ix2 p q) = _
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k := funext fun a => Fin.ext (by
    match a with
    | ⟨0, _⟩ => exact lhs_row _ _
    | ⟨1, _⟩ => exact (lhs_col _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k := funext fun a => Fin.ext (by
    match a with
    | ⟨0, _⟩ => exact rhs_row _ _
    | ⟨1, _⟩ => exact (rhs_col _ _).trans hk)
  rw [el, er]

/-- The body's stored value at entry (p, q) of its block: the shape casts of the two loads are to their own shape. -/
theorem payload_apply (x0 x1 : Vec Ideal S1024x2048 .bf16) (p q : Fin 1024) :
    k0_pay1 (F := Ideal) x0 x1 (ix2 p q) = ∑ k : Fin 2048, x0 (ix2 p k) * x1 (ix2 q k) := by
  unfold k0_pay1
  rw [shapeCast_self, shapeCast_self]
  exact matmul_zero_apply x0 x1 p q

/-- The same at any entry `y` of the block, by its two coordinates. -/
theorem payload_at (x0 x1 : Vec Ideal S1024x2048 .bf16) (y : S1024x1024.Idx) :
    k0_pay1 (F := Ideal) x0 x1 y = ∑ k : Fin 2048, x0 (ix2 (y 0) k) * x1 (ix2 (y 1) k) := by
  obtain ⟨p, q, rfl⟩ : ∃ (p q : Fin 1024), y = ix2 p q := ⟨y 0, y 1, eq_ix2 y⟩
  exact payload_apply x0 x1 p q

end Cert.KernelIdeal.BlockProduct

end
-- ==== Proof.RowProducts.lean ====
/-
  The function both programs compute, stated once over the literal shapes: for an activation array `a` of 8192 rows
  by 2048 columns and a weight array `w` of 8192 rows by 2048 columns, entry (r, o) of the 8192 by 8192 result is
  the inner product of row r of `a` with row o of `w` (that is, `a · wᵀ`), a finite sum of 2048 products on the
  extended reals.
-/
import Idealize.ShloMosaic.PureOps.Ideal
import Idealize.ShloMosaic.Lib.ValueIdx

noncomputable section

open scoped BigOperators

namespace Cert.RowProducts

open Idealize.ShloMosaic Idealize.ShloMosaic.ValueIdx

/-- Entry (r, o) of `a · wᵀ`: the sum over the 2048 shared columns k of `a (r, k) * w (o, k)`. -/
def rowProducts (a w : (⟨2, ![8192, 2048]⟩ : Shape).Idx → EReal) : (⟨2, ![8192, 8192]⟩ : Shape).Idx → EReal :=
  fun i => ∑ k : Fin 2048, a (ix2 (i 0) k) * w (ix2 (i 1) k)

theorem rowProducts_apply (a w : (⟨2, ![8192, 2048]⟩ : Shape).Idx → EReal) (i : (⟨2, ![8192, 8192]⟩ : Shape).Idx) :
    rowProducts a w i = ∑ k : Fin 2048, a (ix2 (i 0) k) * w (ix2 (i 1) k) := rfl

end Cert.RowProducts

end
-- ==== Proof.KernelArray.lean ====
/-
  The kernel's result array after the run. The grid is 8 by 8; point (i, j) fetches rows 1024·i … of the activation
  array (all 2048 columns), rows 1024·j … of the weight array, and writes back block (i, j) of the 8192 by 8192 result.
  Entry (p, q) of that block is the inner product of activation row 1024·i + p with weight row 1024·j + q, which is
  entry (1024·i + p, 1024·j + q) of `rowProducts` of the two whole arrays; the 64 blocks tile the result, so the array
  ends holding `rowProducts`. The two arrays the kernel is launched on are what the host operations before it leave:
  the activation is `where(keep, x · scale, 0)` and the weight is `W`, each passed through a change of float format,
  which on the extended reals is the identity.
-/
import proofs.«427572_j20332375179588_3_alg».proof.Proof.Gen.KernelIdeal.Value
import proofs.«427572_j20332375179588_3_alg».proof.Proof.BlockProduct
import proofs.«427572_j20332375179588_3_alg».proof.Proof.RowProducts
import Idealize.ShloMosaic.Lib.Pipeline.Value
import Idealize.ShloMosaic.Lib.StableHlo.Run
import Idealize.ShloMosaic.Lib.Tactic

set_option maxRecDepth 16384

noncomputable section

open scoped BigOperators

namespace Cert.KernelIdeal.ResultArray

open Cert.KernelIdeal Cert.KernelIdeal.Gen Cert.KernelIdeal.Value Cert.KernelIdeal.BlockProduct Cert.RowProducts
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The activation array as the kernel is launched on it. -/
abbrev act (c : Dev nD) : Vec Ideal S8192x2048 .bf16 := V m c main_v3
/-- The weight array as the kernel is launched on it. -/
abbrev wts (c : Dev nD) : Vec Ideal S8192x2048 .bf16 := V m c main_v4

/-- The index maps over the grid: the activation block's row index is the result block's row index, the weight block's
    row index is the result block's column index, both input blocks start at column 0, and block indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every one of the 8 by 8 result blocks is some grid point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Entry `x` of the activation block at point `t` is the activation array at the row shifted by the result block's
    row index. -/
theorem act_block (c : Dev nD) (t : Fin cfg0.N) (x : S1024x2048.Idx) (k : S8192x2048.Idx)
    (h0 : (k 0).val = win0_2.index t (0 : Fin 2) * 1024 + (x 0).val) (h1 : (k 1).val = (x 1).val) :
    (iblk m c 0 t : Vec Ideal S1024x2048 .bf16) x = act m c k := by
  obtain ⟨e0, e1, e2, e3, -, -⟩ := idx_facts t
  unfold iblk
  rw [View.read_apply]
  show V m c main_v3 _ = V m c main_v3 _
  congr 1
  funext a
  apply Fin.ext
  match a with
  | ⟨0, _⟩ => show win0_0.index t (0 : Fin 2) * 1024 + 1 * (x 0).val = (k 0).val; omega
  | ⟨1, _⟩ => show win0_0.index t (1 : Fin 2) * 2048 + 1 * (x 1).val = (k 1).val; omega

/-- Entry `x` of the weight block at point `t` is the weight array at the row shifted by the result block's column
    index. -/
theorem wts_block (c : Dev nD) (t : Fin cfg0.N) (x : S1024x2048.Idx) (k : S8192x2048.Idx)
    (h0 : (k 0).val = win0_2.index t (1 : Fin 2) * 1024 + (x 0).val) (h1 : (k 1).val = (x 1).val) :
    (iblk m c 1 t : Vec Ideal S1024x2048 .bf16) x = wts m c k := by
  obtain ⟨e0, e1, e2, e3, -, -⟩ := idx_facts t
  unfold iblk
  rw [View.read_apply]
  show V m c main_v4 _ = V m c main_v4 _
  congr 1
  funext a
  apply Fin.ext
  match a with
  | ⟨0, _⟩ => show win0_1.index t (0 : Fin 2) * 1024 + 1 * (x 0).val = (k 0).val; omega
  | ⟨1, _⟩ => show win0_1.index t (1 : Fin 2) * 2048 + 1 * (x 1).val = (k 1).val; omega

/-- What point `t` writes back is block `t` of `rowProducts` of the two launched arrays. -/
theorem flushed_eq (c : Dev nD) (t : Fin cfg0.N) :
    (dats m 0 c).flushed 2 t = ((cfg0.win 2).blk t).view.read (Elt Ideal) (rowProducts (act m c) (wts m c)) := by
  rw [flushed2]
  unfold out0_2
  rw [View.canon_unit_zero hz]
  simp only [View.ld_unit_zero (S := S1024x2048) hz]
  funext j
  show k0_pay1 (F := Ideal) (iblk m c 0 t) (iblk m c 1 t) ((cfg0.win 2).xinj (grid0.coords t) j)
    = rowProducts (act m c) (wts m c) (((cfg0.win 2).blk t).view.emb j)
  refine (payload_at (iblk m c 0 t) (iblk m c 1 t) ((cfg0.win 2).xinj (grid0.coords t) j)).trans ?_
  rw [rowProducts_apply]
  refine Finset.sum_congr rfl fun k _ => ?_
  refine congrArg₂ (· * ·) (act_block m c t _ _ ?_ rfl) (wts_block m c t _ _ ?_ rfl)
  · show win0_2.index t (0 : Fin 2) * 1024 + 1 * (j 0).val = win0_2.index t (0 : Fin 2) * 1024 + (j 0).val; omega
  · show win0_2.index t (1 : Fin 2) * 1024 + 1 * (j 1).val = win0_2.index t (1 : Fin 2) * 1024 + (j 1).val; omega

/-- An index of the result array is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v5).slice (win0_2.rect t)).set ↔ _
  rw [View.set_slice_whole, Rect.mem_set_unit]
  exact Iff.rfl

/-- Every entry (r, o) of the result is in the block of the point with block indices (r / 1024, o / 1024). -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is `rowProducts` of the two launched arrays. -/
theorem final (c : Dev nD) : (dats m 0 c).arrAt 2 cfg0.N = rowProducts (act m c) (wts m c) :=
  (dats m 0 c).arrAt_eq_of_cover 2 (rowProducts (act m c) (wts m c)) (fun t _ => flushed_eq m c t) cover

/-- The activation both programs build on the host: `x · scale` where the keep mask is set, zero elsewhere. -/
def dropped (x : FVec Ideal S8192x2048 .f32) (keep : IVec S8192x2048 1) : FVec Ideal S8192x2048 .f32 :=
  select keep (mulf x (broadcastInDim S8192x2048 ![] bcast_S_S8192x2048 (constant S_ .f32 0x3F8E38E4#32)))
    (broadcastInDim S8192x2048 ![] bcast_S_S8192x2048 (id (constant S_ .f32 0x00000000#32)))

/-- The kernel is launched on the dropped activation: the host operations before it compute it and change its float
    format, which on the extended reals changes nothing. -/
theorem act_eq (c : Dev nD) :
    act m c = dropped (m ((c : Thread nD τ).loc main_arg0)) (m ((c : Thread nD τ).loc main_arg2)) := by
  show (V m c main_v3 : S8192x2048.Idx → EReal) = _
  dsimp only [V]
  simp only [hostOps0, hostOps0_1, hostOps0_2, List.flatten_cons, List.flatten_nil, List.append_nil, List.cons_append, List.nil_append]
  after_results
  rfl

/-- The kernel is launched on the weight argument, its float format changed, which on the extended reals changes
    nothing. -/
theorem wts_eq (c : Dev nD) : wts m c = m ((c : Thread nD τ).loc main_arg1) := by
  show (V m c main_v4 : S8192x2048.Idx → EReal) = _
  dsimp only [V]
  simp only [hostOps0, hostOps0_1, hostOps0_2, List.flatten_cons, List.flatten_nil, List.append_nil, List.cons_append, List.nil_append]
  after_results
  rfl

/-- The run, read: the result array ends at `rowProducts` of the dropped activation and the weight argument, the
    arguments unchanged. -/
theorem run : θ_run defs (onTc (τ := τ) (main (F := Ideal))) ⟨m, fun _ => 0, ρ⟩ fun r => ∀ c : Dev nD,
      r.2.mem ((c : Thread nD τ).loc main_v5)
        = rowProducts (dropped (m ((c : Thread nD τ).loc main_arg0)) (m ((c : Thread nD τ).loc main_arg2))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [act_eq, wts_eq])), (h c).2⟩)
    (run_blocks m ρ)

end Cert.KernelIdeal.ResultArray

end
-- ==== Proof.ReferenceArray.lean ====
/-
  The reference's result: the host's contraction of the dropped activation with the weight over their shared 2048
  columns is, entry by entry, the inner product of a row of the one with a row of the other: `rowProducts`.
-/
import proofs.«427572_j20332375179588_3_alg».proof.Proof.Gen.ReferenceIdeal.Read
import proofs.«427572_j20332375179588_3_alg».proof.Proof.RowProducts

noncomputable section

open scoped BigOperators

namespace Cert.ReferenceIdeal.ResultArray

open Cert.ReferenceIdeal Cert.ReferenceIdeal.Gen Cert.ReferenceIdeal.Read Cert.RowProducts
open Idealize.ShloMosaic Idealize.ShloMosaic.ValueIdx

/-- The left operand is read at (result row, contraction position). -/
theorem lidx_eq (i : S8192x8192.Idx) (k : Fin 2048) : lidx_main_v3 i k = ix2 (i 0) k :=
  funext fun a => Fin.ext (by match a with | ⟨0, _⟩ => rfl | ⟨1, _⟩ => rfl)
/-- The right operand is read at (result column, contraction position). -/
theorem ridx_eq (i : S8192x8192.Idx) (k : Fin 2048) : ridx_main_v3 i k = ix2 (i 1) k :=
  funext fun a => Fin.ext (by match a with | ⟨0, _⟩ => rfl | ⟨1, _⟩ => rfl)

/-- The reference's result is `rowProducts` of its dropped activation and the weight. -/
theorem result_eq (x0 x1 : (⟨S8192x2048, .f32⟩ : BufTy).Contents (Elt Ideal)) (x2 : (⟨S8192x2048, .i1⟩ : BufTy).Contents (Elt Ideal)) :
    val_main_v3 (F := Ideal) x0 x1 x2 = rowProducts (val_main_v2 (F := Ideal) x0 x2) x1 := by
  funext i
  rw [val_main_v3_apply, rowProducts_apply]
  refine Finset.sum_congr rfl fun k _ => ?_
  rw [lidx_eq, ridx_eq]
  rfl

end Cert.ReferenceIdeal.ResultArray

end
-- ==== Proof.lean ====
/- Fused inverted dropout and a linear layer: `out = where(keep, x · scale, 0) · Wᵀ` over f32[8192, 2048] activations
   and f32[8192, 2048] weights. The kernel builds the dropped activation on the host, changes both operands' float
   format, and multiplies 1024-row blocks on an 8 by 8 grid, each point contracting all 2048 columns at once into a
   zero accumulator; the reference builds the same dropped activation and contracts it with the weight in one host
   operation. On the extended reals a change of float format is the identity, so both results are, entry (r, o), the
   sum over the 2048 columns k of `dropped (r, k) * W (o, k)` — the same finite sum, with the same scale literal on
   both sides; no law beyond reading both sums at an index is needed, so the finiteness of the inputs is never used.
   The three frames are the generated frames (the reference's is its generated run with the result dropped), and the
   idealization rewrote nothing, so `preserves` is trivial. -/
import proofs.«427572_j20332375179588_3_alg».proof.Defs
import proofs.«427572_j20332375179588_3_alg».proof.Proof.Gen.Kernel
import proofs.«427572_j20332375179588_3_alg».proof.Proof.Gen.Kernel.Skeleton
import proofs.«427572_j20332375179588_3_alg».proof.Proof.Gen.Kernel.Launch
import proofs.«427572_j20332375179588_3_alg».proof.Proof.Gen.Kernel.Points
import proofs.«427572_j20332375179588_3_alg».proof.Proof.Gen.Kernel.Frame
import proofs.«427572_j20332375179588_3_alg».proof.Proof.Gen.KernelIdeal
import proofs.«427572_j20332375179588_3_alg».proof.Proof.Gen.KernelIdeal.Skeleton
import proofs.«427572_j20332375179588_3_alg».proof.Proof.Gen.KernelIdeal.Launch
import proofs.«427572_j20332375179588_3_alg».proof.Proof.Gen.KernelIdeal.Points
import proofs.«427572_j20332375179588_3_alg».proof.Proof.Gen.KernelIdeal.Frame
import proofs.«427572_j20332375179588_3_alg».proof.Proof.Gen.KernelIdeal.Value
import proofs.«427572_j20332375179588_3_alg».proof.Proof.Gen.ReferenceIdeal
import proofs.«427572_j20332375179588_3_alg».proof.Proof.Gen.ReferenceIdeal.Run
import proofs.«427572_j20332375179588_3_alg».proof.Proof.Gen.ReferenceIdeal.Read
import proofs.«427572_j20332375179588_3_alg».proof.Proof.Gen.Pre_finite_inputs
import Idealize.ShloMosaic.Adequacy
import Idealize.ShloMosaic.Init

import proofs.«427572_j20332375179588_3_alg».proof.Proof.KernelArray
import proofs.«427572_j20332375179588_3_alg».proof.Proof.ReferenceArray

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays end at `rowProducts` of the dropped activation and the weight: the kernel's by its blocks tiling
    the array, the reference's by reading its one contraction at an index; the two dropped activations are one term
    of arguments that agree. -/
theorem algebraic : Cert.algebraic_KernelIdeal_ReferenceIdeal := by
  intro m ρ m' ρ' _ hagree
  refine ⟨_, Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.ResultArray.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
